-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000x1 : Shape := ⟨2, ![640000, 1]⟩
abbrev S128x256 : Shape := ⟨2, ![128, 256]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S640000x1 : S_.BroadcastsInDim S640000x1 (![] : Fin 0 → Fin S640000x1.rank)
  reducesTo_S640000x1_S_d0_1 : S640000x1.ReducesTo [0, 1] S_
  bcast_S_S128x256 : S_.BroadcastsInDim S128x256 (![] : Fin 0 → Fin S128x256.rank)
  reducesTo_S128x256_S_d0_1 : S128x256.ReducesTo [0, 1] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : IVec S640000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg4 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  let main_c_8 : IVec S_ 32 := constantI S_ 32 10000#32
  let main_v23 : IVec S640000 32 := broadcastInDim S640000 ![] bcast_S_S640000 main_c_8
  let main_v24 : IVec S640000 1 := cmpi .slt main_arg4 main_v23
  let main_c_9 : IVec S_ 1 := constantI S_ 1 1#1
  let main_v25 : IVec S_ 1 := (fun x v => Host.reduce IntOp.andi x v reducesTo_S640000_S_d0 h_S_) main_v24 main_c_9
  let main_v26 : IVec S_ 1 := andi main_v22 main_v25
  main_v26

def fn {F : FTy → Type} [FloatOps F] (main_arg0 : FVec F S10000x128 .f32) (main_arg1 : FVec F S640000x128 .f32) (main_arg2 : FVec F S640000x1 .f32) (main_arg3 : FVec F S128x256 .f32) (main_arg4 : IVec S640000 32) (main_arg5 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S640000x1 .f32 := Host.absf main_arg2
  let main_cst_2 : FVec F S_ .f32 := constant S_ .f32 0x7F800000#32
  let main_v10 : FVec F S640000x1 .f32 := broadcastInDim S640000x1 ![] bcast_S_S640000x1 main_cst_2
  let main_v11 : IVec S640000x1 1 := cmpf .olt main_v9 main_v10
  let main_c_3 : IVec S_ 1 := constantI S_ 1 1#1
  let main_v12 : IVec S_ 1 := (fun x v => Host.reduce IntOp.andi x v reducesTo_S640000x1_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S10000x128 : Shape := ⟨2, ![10000, 128]⟩
abbrev S640000x128 : Shape := ⟨2, ![640000, 128]⟩
abbrev S640000x1 : Shape := ⟨2, ![640000, 1]⟩
abbrev S128x256 : Shape := ⟨2, ![128, 256]⟩
abbrev S640000 : Shape := ⟨1, ![640000]⟩
abbrev S128x128 : Shape := ⟨2, ![128, 128]⟩
abbrev S2000x128 : Shape := ⟨2, ![2000, 128]⟩
abbrev S_ : Shape := ⟨0, ![]⟩
abbrev S1 : Shape := ⟨1, ![1]⟩
abbrev S1x1 : Shape := ⟨2, ![1, 1]⟩
abbrev S6400x128 : Shape := ⟨2, ![6400, 128]⟩
abbrev S6400x1 : Shape := ⟨2, ![6400, 1]⟩

abbrev nBuf : Space → Nat
  | .hbm => 47
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000x1, .f32⟩
  | .hbm, ⟨3, _⟩ => ⟨S128x256, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S10000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S1, .i32⟩
  | .hbm, ⟨20, _⟩ => ⟨S_, .i32⟩
  | .hbm, ⟨21, _⟩ => ⟨S640000x1, .i32⟩
  | .hbm, ⟨22, _⟩ => ⟨S640000x1, .i1⟩
  | .hbm, ⟨23, _⟩ => ⟨S1x1, .i32⟩
  | .hbm, ⟨24, _⟩ => ⟨S640000x1, .i32⟩
  | .hbm, ⟨25, _⟩ => ⟨S640000x1, .i1⟩
  | .hbm, ⟨26, _⟩ => ⟨S640000x1, .i1⟩
  | .hbm, ⟨27, _⟩ => ⟨S_, .i1⟩
  | .hbm, ⟨28, _⟩ => ⟨S640000, .i1⟩
  | .hbm, ⟨29, _⟩ => ⟨S640000x128, .f32⟩
  | .hbm, ⟨30, _⟩ => ⟨S640000x128, .i1⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x128, .bf16⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .i1⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S6400x128, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x1, .f32⟩
  | .local _ .vmem, ⟨10, _⟩ => ⟨S6400x1, .f32⟩
  | .local _ .vmem, ⟨11, _⟩ => ⟨S128x128, .f32⟩
  | .local _ .vmem, ⟨12, _⟩ => ⟨S6400x128, .bf16⟩
  | .local _ .vmem, ⟨13, _⟩ => ⟨S6400x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S10000x128 : S_.BroadcastsInDim S10000x128 (![] : Fin 0 → Fin S10000x128.rank)
  dot_S2000x128_S128x128_S2000x128_1_0_0_1_n_n_wf : DotDims.WF S2000x128 S128x128 S2000x128 [1] [0] [0] [1] [] []
  gather_S10000x128_S640000x1_S640000x128_1_0_n_n_0_1_1128_wf : GatherDims.WF S10000x128 S640000x1 S640000x128 [1] [0] [] [0] [] 1 ![1, 128]
  dot_S6400x128_S128x128_S6400x128_1_0_0_1_n_n_wf : DotDims.WF S6400x128 S128x128 S6400x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S640000x128.size a
  hwx1_0 : ∀ i : grid1.Coords, EltTy.bits .f32 = 32 ∨ (Rect.block (s := S640000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S640000x128.size a
  hwx1_1 : ∀ i : grid1.Coords, EltTy.bits .f32 = 32 ∨ (Rect.block (s := S640000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S640000x1.size a
  hwx1_2 : ∀ i : grid1.Coords, EltTy.bits .f32 = 32 ∨ (Rect.block (s := S640000x1) S6400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x128.size a ≤ S640000x128.size a
  hwx1_4 : ∀ i : grid1.Coords, EltTy.bits .bf16 = 32 ∨ (Rect.block (s := S640000x128) S6400x128.size (cc1_transform_4 i) (hinb1_4 i)).WholeWords (EltTy.packing .bf16)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S6400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000x1 : Shape := ⟨2, ![640000, 1]⟩
abbrev S128x256 : Shape := ⟨2, ![128, 256]⟩
abbrev S640000 : Shape := ⟨1, ![640000]⟩
abbrev S128x128 : Shape := ⟨2, ![128, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000x1, .f32⟩
  | .hbm, ⟨3, _⟩ => ⟨S128x256, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S128x128, .f32⟩
  | .hbm, ⟨8, _⟩ => ⟨S10000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S10000x128, .f32⟩
  | .hbm, ⟨24, _⟩ => ⟨S640000x1, .i32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .i1⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  dot_S10000x128_S128x128_S10000x128_1_1_0_0_n_n_wf : DotDims.WF S10000x128 S128x128 S10000x128 [1] [1] [0] [0] [] []
  gather_S10000x128_S640000x1_S640000x128_1_0_n_n_0_1_1128_wf : GatherDims.WF S10000x128 S640000x1 S640000x128 [1] [0] [] [0] [] 1 ![1, 128]
  dot_S640000x128_S128x128_S640000x128_1_1_0_0_n_n_wf : DotDims.WF S640000x128 S128x128 S640000x128 [1] [1] [0] [0] [] []
  scatter_S10000x128_S640000x1_S640000x128_1_0_0_1_wf : ScatterDims.WF S10000x128 S640000x1 S640000x128 [1] [0] [0] 1

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_1_0_0_n_n : DotDims S640000x128 S128x128 S640000x128 where
  lhsContracting := [1]
  rhsContracting := [1]
  lhsNonContracting := [0]
  rhsNonContracting := [0]
  lhsBatch := []
  rhsBatch := []
  wf := dot_S640000x128_S128x128_S640000x128_1_1_0_0_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.HostRead.lean ====
/-
  THE HOST STRETCHES, read. Between the launch and the return @main runs four stretches of host operations around
  its two pallas_calls. Here each buffer a region reads at its entry, and the result buffer after the last
  stretch, is written as a pure term of the launch memory and of the two regions' output arrays:
  the two weights are the transposed halves of the 128 × 256 weight; the gathered projection is the
  guarded row gather of the node region's output at the wrapped source indices; and the result is the tail
  `where(h ≥ 0, h, slope · h)` of `h`, the scatter-add of the edge region's output at the destination indices.
-/
import proofs.«406630_j26628797235284_3_alg».proof.Proof.Gen.KernelIdeal.Frame
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The terms -/

/-- The left or right half of the weight, transposed: what each kernel multiplies by. -/
def wSrcT (W : Vec F S128x256 .f32) : Vec F S128x128 .f32 :=
  transpose S128x128 [1, 0] (extractStridedSlice S128x128 ![0, 0] W slices_S128x256_S128x128_0_0) transposes_S128x128_S128x128_1_0
def wEdgeT (W : Vec F S128x256 .f32) : Vec F S128x128 .f32 :=
  transpose S128x128 [1, 0] (extractStridedSlice S128x128 ![0, 128] W slices_S128x256_S128x128_0_128) transposes_S128x128_S128x128_1_0

/-- The source indices as the gather takes them: a negative one counted from the end, laid out as a column. -/
def srcCol (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 10000#32))) src)

/-- The guarded row gather: the rows of `x` at the wrapped indices where those lie in `[0, 9999]`, a fill row elsewhere. -/
def takeRows (x : Vec F S10000x128 .f32) (src : IVec S640000 32) : Vec F S640000x128 .f32 :=
  select (broadcastInDim S640000x128 ![0] bcast_S640000_S640000x128_0
      (Host.reduce IntOp.andi
        (andi (cmpi .sge (srcCol src) (broadcastInDim S640000x1 ![] bcast_S_S640000x1 (constantI S_ 32 0#32)))
          (cmpi .sle (srcCol src) (broadcastInDim S640000x1 ![0, 1] bcast_S1x1_S640000x1_0_1
            (broadcastInDim S1x1 ![1] bcast_S1_S1x1_1 (constantI S1 32 9999#32)))))
        (constantI S_ 1 1#1) reducesTo_S640000x1_S640000_d1 h_S_))
    (Host.gather gather_S10000x128_S640000x1_S640000x128_1_0_n_n_0_1_1128 x (srcCol src))
    (broadcastInDim S640000x128 ![] bcast_S_S640000x128 (constant S_ .f32 0x7FC00000#32))

/-- The node sums and the activation: `h` adds each edge's message into its destination node's row, and the result keeps
    `h` where it is not negative and scales it by the slope elsewhere. -/
def tail (msg : Vec F S640000x128 .f32) (dst : IVec S640000 32) : Vec F S10000x128 .f32 :=
  select
    (cmpf .oge
      (Host.scatterAdd scatter_S10000x128_S640000x1_S640000x128_1_0_0_1
        (broadcastInDim S10000x128 ![] bcast_S_S10000x128 (constant S_ .f32 0x00000000#32))
        (broadcastInDim S640000x1 ![0] bcast_S640000_S640000x1_0 dst) msg)
      (broadcastInDim S10000x128 ![] bcast_S_S10000x128 (constant S_ .f32 0x00000000#32)))
    (Host.scatterAdd scatter_S10000x128_S640000x1_S640000x128_1_0_0_1
      (broadcastInDim S10000x128 ![] bcast_S_S10000x128 (constant S_ .f32 0x00000000#32))
      (broadcastInDim S640000x1 ![0] bcast_S640000_S640000x1_0 dst) msg)
    (mulf (broadcastInDim S10000x128 ![] bcast_S_S10000x128 (constant S_ .f32 0x3E6AAAAB#32))
      (Host.scatterAdd scatter_S10000x128_S640000x1_S640000x128_1_0_0_1
        (broadcastInDim S10000x128 ![] bcast_S_S10000x128 (constant S_ .f32 0x00000000#32))
        (broadcastInDim S640000x1 ![0] bcast_S640000_S640000x1_0 dst) msg))

/-! ## The node region's entry -/

theorem V1_arg0 (c : Dev nD) : V1 m ρ c main_arg0 = m ((c : Thread nD τ).loc main_arg0) := by
  show StableHlo.after hostOps0 (W0 m ρ c) (Proc.devRef .tc main_arg0) = _
  after_results

theorem V1_v1 (c : Dev nD) : V1 m ρ c main_v1 = wSrcT (m ((c : Thread nD τ).loc main_arg3)) := by
  show StableHlo.after hostOps0 (W0 m ρ c) (Proc.devRef .tc main_v1) = _
  after_results
  rfl

/-! ## Through the node region: a buffer that is none of its arrays keeps its entry contents -/

theorem W2_keep (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

theorem W2_arg1 (c : Dev nD) : W2 m ρ c (Proc.devRef .tc main_arg1) = m ((c : Thread nD τ).loc main_arg1) := by
  rw [W2_keep m ρ c main_arg1 (by decide)]
  after_results
theorem W2_arg2 (c : Dev nD) : W2 m ρ c (Proc.devRef .tc main_arg2) = m ((c : Thread nD τ).loc main_arg2) := by
  rw [W2_keep m ρ c main_arg2 (by decide)]
  after_results
theorem W2_arg4 (c : Dev nD) : W2 m ρ c (Proc.devRef .tc main_arg4) = m ((c : Thread nD τ).loc main_arg4) := by
  rw [W2_keep m ρ c main_arg4 (by decide)]
  after_results
theorem W2_arg5 (c : Dev nD) : W2 m ρ c (Proc.devRef .tc main_arg5) = m ((c : Thread nD τ).loc main_arg5) := by
  rw [W2_keep m ρ c main_arg5 (by decide)]
  after_results
theorem W2_v3 (c : Dev nD) : W2 m ρ c (Proc.devRef .tc main_v3) = wEdgeT (m ((c : Thread nD τ).loc main_arg3)) := by
  rw [W2_keep m ρ c main_v3 (by decide)]
  after_results
  rfl
/-- … and its output array holds what its write-backs leave. -/
theorem W2_v4 (c : Dev nD) : W2 m ρ c (Proc.devRef .tc main_v4) = (dat0 (V1 m ρ) c).arrAt 2 cfg0.N :=
  W2_arr m ρ c 2

/-! ## The edge region's entry -/

theorem V3_arg1 (c : Dev nD) : V3 m ρ c main_arg1 = m ((c : Thread nD τ).loc main_arg1) := by
  show StableHlo.after hostOps1 (W2 m ρ c) (Proc.devRef .tc main_arg1) = _
  after_results
  exact W2_arg1 m ρ c
theorem V3_arg2 (c : Dev nD) : V3 m ρ c main_arg2 = m ((c : Thread nD τ).loc main_arg2) := by
  show StableHlo.after hostOps1 (W2 m ρ c) (Proc.devRef .tc main_arg2) = _
  after_results
  exact W2_arg2 m ρ c
theorem V3_v3 (c : Dev nD) : V3 m ρ c main_v3 = wEdgeT (m ((c : Thread nD τ).loc main_arg3)) := by
  show StableHlo.after hostOps1 (W2 m ρ c) (Proc.devRef .tc main_v3) = _
  after_results
  exact W2_v3 m ρ c
/-- A called function's operation writes its value through the buffer's own type and reads it back: the identity. -/
theorem ofBuf_toBuf {T : BufTy} (x : TRef sig T) (v : T.Contents (Elt F)) : x.ofBuf (x.toBuf v) = v := by
  obtain ⟨r, h, _, _⟩ := x
  subst h
  rfl

theorem V3_v5_raw (c : Dev nD) :
    V3 m ρ c main_v5 = takeRows (W2 m ρ c (Proc.devRef .tc main_v4)) (W2 m ρ c (Proc.devRef .tc main_arg4)) := by
  show StableHlo.after hostOps1 (W2 m ρ c) (Proc.devRef .tc main_v5) = _
  after_results
  simp only [ofBuf_toBuf]
  unfold takeRows srcCol
  simp only [TRef.toBuf, TRef.ofBuf, cast_eq]
theorem V3_v5 (c : Dev nD) :
    V3 m ρ c main_v5 = takeRows ((dat0 (V1 m ρ) c).arrAt 2 cfg0.N) (m ((c : Thread nD τ).loc main_arg4)) := by
  rw [V3_v5_raw m ρ c, W2_arg4 m ρ c, W2_v4 m ρ c]

/-! ## After the edge region -/

theorem W4_arg5 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results
  exact W2_arg5 m ρ c

/-- THE RESULT BUFFER after the last stretch: the tail of the edge region's output array. -/
theorem W6_v15 (c : Dev nD) :
    W6 m ρ c (Proc.devRef .tc main_v15)
      = tail (extf .f32 ((dat1 (V3 m ρ) c).arrAt 4 cfg1.N) bitsLt_bf16_f32) (m ((c : Thread nD τ).loc main_arg5)) := by
  show StableHlo.after hostOps2_1 (StableHlo.after hostOps2 (W4 m ρ c)) (Proc.devRef .tc main_v15) = _
  after_results
  rw [W4_arg5 m ρ c, W4_arr m ρ c 4]
  rfl

end Cert.KernelIdeal.HostRead

end
-- ==== Proof.Payload.lean ====
/-
  What each kernel body stores, at an index, at the exact values (floats as extended reals, a change of float
  format the identity): the node kernel stores the block's product with the weight, `∑ₖ x[r, k] · w[k, h]`; the
  edge kernel stores `(g[r, h] + ∑ₖ e[r, k] · w[k, h]) · n[r, 0]` — the gathered projection plus the edge's own
  projection, scaled by the edge's norm.
-/
import proofs.«406630_j26628797235284_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic

/-! ### The 2000-row block's product: `(a · b)[r, h] = ∑ₖ a[r, k] · b[k, h]` -/

theorem lhs2000_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs2000_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs2000_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs2000_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- row `i 0` of the left factor, column `k` -/
abbrev lrow2000 (i : S2000x128.Idx) (k : Fin 128) : S2000x128.Idx := fun a => match a with
  | ⟨0, _⟩ => ⟨(i 0).val, (i 0).isLt⟩
  | ⟨1, _⟩ => ⟨k.val, k.isLt⟩
/-- row `k` of the right factor, column `i 1` -/
abbrev rcol2000 (i : S2000x128.Idx) (k : Fin 128) : S128x128.Idx := fun a => match a with
  | ⟨0, _⟩ => ⟨k.val, k.isLt⟩
  | ⟨1, _⟩ => ⟨(i 1).val, (i 1).isLt⟩

/-- The matrix unit's product into a zero accumulator, at the exact values, is the plain sum over the contracted axis. -/
theorem matmul2000_apply {φ₁ φ₂ : FTy} (a : FVec Ideal S2000x128 φ₁) (b : FVec Ideal S128x128 φ₂) (i : S2000x128.Idx) :
    matmul dot_S2000x128_S128x128_S2000x128_1_0_0_1_n_n none a b (constant S2000x128 .f32 0x00000000#32) i
      = ∑ k : Fin 128, a (lrow2000 i k) * b (rcol2000 i k) := by
  show FloatOps.matmul dot_S2000x128_S128x128_S2000x128_1_0_0_1_n_n none a b (constant S2000x128 .f32 0x00000000#32) i = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lrow2000 i k := funext fun a => Fin.ext (by
    match a with
    | ⟨0, _⟩ => exact lhs2000_0 _ _
    | ⟨1, _⟩ => exact (lhs2000_1 _ _).trans hk)
  have er : dot_S2000x128_S128x128_S2000x128_1_0_0_1_n_n.rhsIdx i ((ValueIdx.contrEquiv1 dot_S2000x128_S128x128_S2000x128_1_0_0_1_n_n 128 rfl rfl).symm k) = rcol2000 i k := funext fun a => Fin.ext (by
    match a with
    | ⟨0, _⟩ => exact (rhs2000_0 _ _).trans hk
    | ⟨1, _⟩ => exact rhs2000_1 _ _)
  rw [el, er]

/-! ### The 6400-row block's product: `(a · b)[r, h] = ∑ₖ a[r, k] · b[k, h]` -/

theorem lhs6400_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs6400_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs6400_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs6400_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- row `i 0` of the left factor, column `k` -/
abbrev lrow6400 (i : S6400x128.Idx) (k : Fin 128) : S6400x128.Idx := fun a => match a with
  | ⟨0, _⟩ => ⟨(i 0).val, (i 0).isLt⟩
  | ⟨1, _⟩ => ⟨k.val, k.isLt⟩
/-- row `k` of the right factor, column `i 1` -/
abbrev rcol6400 (i : S6400x128.Idx) (k : Fin 128) : S128x128.Idx := fun a => match a with
  | ⟨0, _⟩ => ⟨k.val, k.isLt⟩
  | ⟨1, _⟩ => ⟨(i 1).val, (i 1).isLt⟩

/-- The matrix unit's product into a zero accumulator, at the exact values, is the plain sum over the contracted axis. -/
theorem matmul6400_apply {φ₁ φ₂ : FTy} (a : FVec Ideal S6400x128 φ₁) (b : FVec Ideal S128x128 φ₂) (i : S6400x128.Idx) :
    matmul dot_S6400x128_S128x128_S6400x128_1_0_0_1_n_n none a b (constant S6400x128 .f32 0x00000000#32) i
      = ∑ k : Fin 128, a (lrow6400 i k) * b (rcol6400 i k) := by
  show FloatOps.matmul dot_S6400x128_S128x128_S6400x128_1_0_0_1_n_n none a b (constant S6400x128 .f32 0x00000000#32) i = _
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx i ((ValueIdx.contrEquiv1 dot_S6400x128_S128x128_S6400x128_1_0_0_1_n_n 128 rfl rfl).symm k) = lrow6400 i k := funext fun a => Fin.ext (by
    match a with
    | ⟨0, _⟩ => exact lhs6400_0 _ _
    | ⟨1, _⟩ => exact (lhs6400_1 _ _).trans hk)
  have er : dot_S6400x128_S128x128_S6400x128_1_0_0_1_n_n.rhsIdx i ((ValueIdx.contrEquiv1 dot_S6400x128_S128x128_S6400x128_1_0_0_1_n_n 128 rfl rfl).symm k) = rcol6400 i k := funext fun a => Fin.ext (by
    match a with
    | ⟨0, _⟩ => exact (rhs6400_0 _ _).trans hk
    | ⟨1, _⟩ => exact rhs6400_1 _ _)
  rw [el, er]

/-- the norm of the edge in row `i 0` -/
abbrev nrow (i : S6400x128.Idx) : S6400x1.Idx := fun a => match a with
  | ⟨0, _⟩ => ⟨(i 0).val, (i 0).isLt⟩
  | ⟨1, _⟩ => ⟨0, Nat.one_pos⟩

/-- THE NODE KERNEL's stored block at an index. -/
theorem pay0_apply (x : Vec Ideal S2000x128 .f32) (w : Vec Ideal S128x128 .f32) (i : S2000x128.Idx) :
    k0_pay1 (F := Ideal) x w i = ∑ k : Fin 128, x (lrow2000 i k) * w (rcol2000 i k) := by
  unfold k0_pay1
  rw [shapeCast_self]
  exact matmul2000_apply _ _ i

/-- THE EDGE KERNEL's stored block at an index. -/
theorem pay1_apply (e : Vec Ideal S6400x128 .f32) (w : Vec Ideal S128x128 .f32) (g : Vec Ideal S6400x128 .f32)
    (n : Vec Ideal S6400x1 .f32) (i : S6400x128.Idx) :
    k1_pay1 (F := Ideal) e w g n i = (g i + ∑ k : Fin 128, e (lrow6400 i k) * w (rcol6400 i k)) * n (nrow i) := by
  unfold k1_pay1
  rw [shapeCast_self, shapeCast_self]
  have hb := broadcastTo_apply n broadcasts_S6400x1_S6400x128 i (nrow i) (fun a => match a with
    | ⟨0, _⟩ => by show (i 0).val = if (6400 : Nat) = 1 then 0 else (i 0).val; rw [if_neg (by decide)]
    | ⟨1, _⟩ => by show 0 = if (1 : Nat) = 1 then 0 else (i 1).val; rw [if_pos rfl])
  have hm := matmul6400_apply (truncf .bf16 e bitsLt_bf16_f32) (truncf .bf16 w bitsLt_bf16_f32) i
  refine (show _ = (g i + matmul (F := Ideal) dot_S6400x128_S128x128_S6400x128_1_0_0_1_n_n none
      (truncf .bf16 e bitsLt_bf16_f32) (truncf .bf16 w bitsLt_bf16_f32) (constant S6400x128 .f32 0x00000000#32) i)
      * broadcastTo S6400x128 n broadcasts_S6400x1_S6400x128 i from rfl).trans ?_
  rw [hm, hb]
  rfl

end Cert.KernelIdeal.Payload

end
-- ==== Proof.NodeRegion.lean ====
/-
  THE NODE REGION, as one array. The first pallas_call walks the node table in five blocks of 2000 rows; at each
  point it stores the block's product with the (whole) 128 × 128 weight. Block `t` covers rows
  `2000·t … 2000·t + 1999`, the blocks tile the table, and every stored entry is the same function of the array
  index: `proj x w [n, h] = ∑ₖ x[n, k] · w[k, h]`. So at the region's exit the output array is `proj` of the
  two arrays the region found at its entry.
-/
import proofs.«406630_j26628797235284_3_alg».proof.Proof.Gen.KernelIdeal.Frame
import proofs.«406630_j26628797235284_3_alg».proof.Proof.Payload
import Idealize.ShloMosaic.Lib.Pipeline.Value

set_option maxRecDepth 16384

noncomputable section

namespace Cert.KernelIdeal.NodeRegion

open Cert.KernelIdeal Cert.KernelIdeal.Gen Cert.KernelIdeal.Payload
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- row `n` of the node table, feature `k` -/
abbrev xrow (i : S10000x128.Idx) (k : Fin 128) : S10000x128.Idx := fun a => match a with
  | ⟨0, _⟩ => ⟨(i 0).val, (i 0).isLt⟩
  | ⟨1, _⟩ => ⟨k.val, k.isLt⟩
/-- row `k` of the weight, column `h` -/
abbrev wcol (i : S10000x128.Idx) (k : Fin 128) : S128x128.Idx := fun a => match a with
  | ⟨0, _⟩ => ⟨k.val, k.isLt⟩
  | ⟨1, _⟩ => ⟨(i 1).val, (i 1).isLt⟩

/-- The node table times the weight: `proj x w [n, h] = ∑ₖ x[n, k] · w[k, h]`. -/
def proj (x : Vec Ideal S10000x128 .f32) (w : Vec Ideal S128x128 .f32) : Vec Ideal S10000x128 .f32 :=
  fun i => ∑ k : Fin 128, x (xrow i k) * w (wcol i k)

/-- One stored entry: the block's product at `j` is `proj` at the array index `i`, as soon as the block's row `j 0`
    is the table's row `i 0` and the two weights agree. -/
theorem point_eq (x0 : Vec Ideal S2000x128 .f32) (x1 : Vec Ideal S128x128 .f32) (X : Vec Ideal S10000x128 .f32)
    (Wt : Vec Ideal S128x128 .f32) (j : S2000x128.Idx) (i : S10000x128.Idx)
    (h0 : ∀ k, x0 (lrow2000 j k) = X (xrow i k)) (h1 : ∀ k, x1 (rcol2000 j k) = Wt (wcol i k)) :
    k0_pay1 (F := Ideal) x0 x1 j = proj X Wt i := by
  rw [pay0_apply]
  unfold proj
  exact Finset.sum_congr rfl fun k _ => by rw [h0 k, h1 k]

/-- The printed index maps over the grid: the table's window moves with the output's along the rows, the weight's
    window stays, and no window moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every one of the five row blocks is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- WHAT POINT `t` WRITES BACK is block `t` of `proj` of the arrays as the region finds them. -/
theorem flushed_eq (c : Dev nD) (t : Fin cfg0.N) :
    (dat0 V c).flushed 2 t = ((cfg0.win 2).blk t).view.read (Elt Ideal) (proj (V c main_arg0) (V c main_v1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  show k0_pay1 (F := Ideal) (iblk0 V c 0 t) (iblk0 V c 1 t) j
    = proj (V c main_arg0) (V c main_v1) (((cfg0.win 2).blk t).view.emb j)
  refine point_eq _ _ _ _ j _ (fun k => ?_) (fun k => ?_)
  · show V c main_arg0 (((cfg0.win 0).blk t).view.emb (lrow2000 j k))
      = V c main_arg0 (xrow (((cfg0.win 2).blk t).view.emb j) k)
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_v1 (((cfg0.win 1).blk t).view.emb (rcol2000 j k))
      = V c main_v1 (wcol (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the table is in point `t`'s block iff each coordinate is in the block's range on its axis. -/
theorem mem_blk (t : Fin cfg0.N) (i : S10000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- The blocks tile the table: row `n` is in the block of the point whose row index is `n / 2000`. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE OUTPUT ARRAY at the region's exit: `proj` of the node table and the weight as the region found them. -/
theorem final (c : Dev nD) : (dat0 V c).arrAt 2 cfg0.N = proj (V c main_arg0) (V c main_v1) :=
  (dat0 V c).arrAt_eq_of_cover 2 _ (fun t _ => flushed_eq V c t) cover

end Cert.KernelIdeal.NodeRegion

end
-- ==== Proof.EdgeRegion.lean ====
/-
  THE EDGE REGION, as one array. The second pallas_call walks the 640000 edges in a hundred blocks of 6400; at each
  point it stores, for the block's edges, the gathered projection plus the edge's own features times the (whole)
  weight, scaled by the edge's norm. Block `t` covers edges `6400·t … 6400·t + 6399`, the blocks tile the edge
  array, and every stored entry is the same function of the array index:
  `msg e g n w [r, h] = (g[r, h] + ∑ₖ e[r, k] · w[k, h]) · n[r, 0]`.
-/
import proofs.«406630_j26628797235284_3_alg».proof.Proof.Gen.KernelIdeal.Frame
import proofs.«406630_j26628797235284_3_alg».proof.Proof.Payload
import Idealize.ShloMosaic.Lib.Pipeline.Value

set_option maxRecDepth 16384

noncomputable section

namespace Cert.KernelIdeal.EdgeRegion

open Cert.KernelIdeal Cert.KernelIdeal.Gen Cert.KernelIdeal.Payload
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- edge `r`, feature `k` -/
abbrev erow (i : S640000x128.Idx) (k : Fin 128) : S640000x128.Idx := fun a => match a with
  | ⟨0, _⟩ => ⟨(i 0).val, (i 0).isLt⟩
  | ⟨1, _⟩ => ⟨k.val, k.isLt⟩
/-- row `k` of the weight, column `h` -/
abbrev wcol (i : S640000x128.Idx) (k : Fin 128) : S128x128.Idx := fun a => match a with
  | ⟨0, _⟩ => ⟨k.val, k.isLt⟩
  | ⟨1, _⟩ => ⟨(i 1).val, (i 1).isLt⟩
/-- the norm of edge `r` -/
abbrev ncol (i : S640000x128.Idx) : S640000x1.Idx := fun a => match a with
  | ⟨0, _⟩ => ⟨(i 0).val, (i 0).isLt⟩
  | ⟨1, _⟩ => ⟨0, Nat.one_pos⟩

/-- An edge's message: the gathered projection of its source node plus its own features times the weight, scaled by
    its norm. -/
def msg (e g : Vec Ideal S640000x128 .f32) (n : Vec Ideal S640000x1 .f32) (w : Vec Ideal S128x128 .f32) :
    Vec Ideal S640000x128 .bf16 :=
  fun i => (g i + ∑ k : Fin 128, e (erow i k) * w (wcol i k)) * n (ncol i)

/-- One stored entry: the block's value at `j` is `msg` at the array index `i`, as soon as the block's row `j 0` is the
    array's row `i 0` in each of the three edge arrays and the two weights agree. -/
theorem point_eq (x0 : Vec Ideal S6400x128 .f32) (x3 : Vec Ideal S128x128 .f32) (x1 : Vec Ideal S6400x128 .f32)
    (x2 : Vec Ideal S6400x1 .f32) (Ee Gg : Vec Ideal S640000x128 .f32) (Nn : Vec Ideal S640000x1 .f32)
    (Wt : Vec Ideal S128x128 .f32) (j : S6400x128.Idx) (i : S640000x128.Idx)
    (h0 : ∀ k, x0 (lrow6400 j k) = Ee (erow i k)) (h3 : ∀ k, x3 (rcol6400 j k) = Wt (wcol i k))
    (h1 : x1 j = Gg i) (h2 : x2 (nrow j) = Nn (ncol i)) :
    k1_pay1 (F := Ideal) x0 x3 x1 x2 j = msg Ee Gg Nn Wt i := by
  rw [pay1_apply, h1, h2, show (∑ k : Fin 128, x0 (lrow6400 j k) * x3 (rcol6400 j k))
      = ∑ k : Fin 128, Ee (erow i k) * Wt (wcol i k) from Finset.sum_congr rfl fun k _ => by rw [h0 k, h3 k]]
  rfl

/-- The printed index maps over the grid: the three edge windows move with the output's along the rows, the
    weight's window stays, and no window moves along the columns. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 99 :=
  (by decide +kernel : ∀ t : Fin grid1.N, _)

/-- Every one of the hundred row blocks is some point's. -/
theorem idx_onto : ∀ q0 : Fin 100, ∃ t : Fin cfg1.N, win1_4.index t = ![q0.val, 0] :=
  (by decide +kernel : ∀ q0 : Fin 100, ∃ t : Fin grid1.N, win1_4.index t = ![q0.val, 0])

/-- WHAT POINT `t` WRITES BACK is block `t` of `msg` of the arrays as the region finds them. -/
theorem flushed_eq (c : Dev nD) (t : Fin cfg1.N) :
    (dat1 V c).flushed 4 t = ((cfg1.win 4).blk t).view.read (Elt Ideal)
      (msg (V c main_arg1) (V c main_v5) (V c main_arg2) (V c main_v3)) := by
  show (cfg1.win 4).cut (grid1.coords t) ((dat1 V c).after 4 t) = _
  rw [after1_4]
  unfold out1_4
  rw [View.canon_unit_zero hz]
  simp only [View.ld_unit_zero (S := S6400x128) hz, View.ld_unit_zero (S := S128x128) hz, View.ld_unit_zero (S := S6400x1) hz]
  obtain ⟨e0, e1, e2, e3, e4, e5, e6, e7, e8, e9⟩ := idx_facts t
  funext j
  show k1_pay1 (F := Ideal) (iblk1 V c 0 t) (iblk1 V c 3 t) (iblk1 V c 1 t) (iblk1 V c 2 t) j
    = msg (V c main_arg1) (V c main_v5) (V c main_arg2) (V c main_v3) (((cfg1.win 4).blk t).view.emb j)
  refine point_eq _ _ _ _ _ _ _ _ j _ (fun k => ?_) (fun k => ?_) ?_ ?_
  · show V c main_arg1 (((cfg1.win 0).blk t).view.emb (lrow6400 j k))
      = V c main_arg1 (erow (((cfg1.win 4).blk t).view.emb j) k)
    refine congrArg _ (funext fun a => Fin.ext ?_)
    match a with
    | ⟨0, _⟩ => show win1_0.index t (0 : Fin 2) * 6400 + 1 * (j 0).val = win1_4.index t (0 : Fin 2) * 6400 + 1 * (j 0).val; omega
    | ⟨1, _⟩ => show win1_0.index t (1 : Fin 2) * 128 + 1 * k.val = k.val; omega
  · show V c main_v3 (((cfg1.win 3).blk t).view.emb (rcol6400 j k))
      = V c main_v3 (wcol (((cfg1.win 4).blk t).view.emb j) k)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega
  · show V c main_v5 (((cfg1.win 1).blk t).view.emb j) = V c main_v5 (((cfg1.win 4).blk t).view.emb j)
    refine congrArg _ (funext fun a => Fin.ext ?_)
    match a with
    | ⟨0, _⟩ => show win1_1.index t (0 : Fin 2) * 6400 + 1 * (j 0).val = win1_4.index t (0 : Fin 2) * 6400 + 1 * (j 0).val; omega
    | ⟨1, _⟩ => show win1_1.index t (1 : Fin 2) * 128 + 1 * (j 1).val = win1_4.index t (1 : Fin 2) * 128 + 1 * (j 1).val; omega
  · show V c main_arg2 (((cfg1.win 2).blk t).view.emb (nrow j))
      = V c main_arg2 (ncol (((cfg1.win 4).blk t).view.emb j))
    refine congrArg _ (funext fun a => Fin.ext ?_)
    match a with
    | ⟨0, _⟩ => show win1_2.index t (0 : Fin 2) * 6400 + 1 * (j 0).val = win1_4.index t (0 : Fin 2) * 6400 + 1 * (j 0).val; omega
    | ⟨1, _⟩ => show win1_2.index t (1 : Fin 2) * 1 + 1 * 0 = 0; omega

/-- An index of the edge array is in point `t`'s block iff each coordinate is in the block's range on its axis. -/
theorem mem_blk (t : Fin cfg1.N) (i : S640000x128.Idx) :
    i ∈ ((cfg1.win 4).blk t).view.set ↔ ∀ a : Fin 2, win1_4.index t a * S6400x128.size a ≤ (i a).val
      ∧ (i a).val < win1_4.index t a * S6400x128.size a + S6400x128.size a := by
  show i ∈ ((View.whole main_v6).slice (win1_4.rect t)).set ↔ _
  rw [View.set_slice_whole, Rect.mem_set_unit]
  exact Iff.rfl

/-- The blocks tile the edge array: edge `r` is in the block of the point whose row index is `r / 6400`. -/
theorem cover (i : S640000x128.Idx) :
    ∃ t : Fin cfg1.N, (cfg1.win 4).flush t = true ∧ i ∈ ((cfg1.win 4).blk t).view.set := by
  have hi0 : (i 0).val < 640000 := (i 0).isLt
  have hi1 : (i 1).val < 128 := (i 1).isLt
  obtain ⟨t, ht⟩ := idx_onto ⟨(i 0).val / 6400, by omega⟩
  have q0 : win1_4.index t (0 : Fin 2) = (i 0).val / 6400 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 6400 ≤ (i 0).val ∧ (i 0).val < win1_4.index t (0 : Fin 2) * 6400 + 6400; omega
  | ⟨1, _⟩ => show win1_4.index t (1 : Fin 2) * 128 ≤ (i 1).val ∧ (i 1).val < win1_4.index t (1 : Fin 2) * 128 + 128; omega

/-- THE OUTPUT ARRAY at the region's exit: `msg` of the four arrays as the region found them. -/
theorem final (c : Dev nD) :
    (dat1 V c).arrAt 4 cfg1.N = msg (V c main_arg1) (V c main_v5) (V c main_arg2) (V c main_v3) :=
  (dat1 V c).arrAt_eq_of_cover 4 _ (fun t _ => flushed_eq V c t) cover

end Cert.KernelIdeal.EdgeRegion

end
-- ==== Proof.SrcRange.lean ====
/-
  What the precondition says of the source-node indices: it ends in `all(src ≥ 0) ∧ all(src < 10000)`, each an
  `and`-reduction of a signed comparison over the whole index vector, so when the precondition's word is one
  every source index lies in the node table's range `[0, 10000)`.
-/
import proofs.«406630_j26628797235284_3_alg».proof.Pre_finite_inputs
import Idealize.ShloMosaic.Lib.Affine
import Idealize.ShloMosaic.Lib.ReduceAll
import Idealize.ShloMosaic.Lib.ValueIdx

noncomputable section

namespace Cert.SrcRange

open Idealize.ShloMosaic Cert.Pre_finite_inputs

instance : Subsingleton S_.Idx := ⟨fun a b => funext fun d => d.elim0⟩

/-- Under the precondition every source index is a row of the node table. -/
theorem of_pre {F : FTy → Type} [FloatOps F] [Cert.Pre_finite_inputs.Facts]
    (a0 : FVec F S10000x128 .f32) (a1 : FVec F S640000x128 .f32) (a2 : FVec F S640000x1 .f32) (a3 : FVec F S128x256 .f32)
    (src dst : IVec S640000 32)
    (h : Cert.Pre_finite_inputs.fn (F := F) a0 a1 a2 a3 src dst = fun _ => 1#1) (e : S640000.Idx) :
    0 ≤ (src e).toInt ∧ (src e).toInt < 10000 := by
  have hz : (0#32 : BitVec 32).toInt = 0 := by decide
  have hn : (10000#32 : BitVec 32).toInt = 10000 := by decide
  have h0 := congrFun h ValueIdx.ix0
  dsimp only [Cert.Pre_finite_inputs.fn, Cert.Pre_finite_inputs.fn_part1] at h0
  change IntOp.andi _ _ = 1#1 at h0
  obtain ⟨h01, h25⟩ := IntOp.andi_eq_one.1 h0
  change IntOp.andi _ _ = 1#1 at h01
  obtain ⟨-, h21⟩ := IntOp.andi_eq_one.1 h01
  have g0 := Host.reduce_andi_all _ _ _ _ _ h21 e
  have g1 := Host.reduce_andi_all _ _ _ _ _ h25 e
  change IntOp.cmpi .sge (src e) 0#32 = 1#1 at g0
  change IntOp.cmpi .slt (src e) 10000#32 = 1#1 at g1
  have g0' := IntOp.cmpi_sge.1 g0
  have g1' := IntOp.cmpi_slt.1 g1
  rw [hz] at g0'
  rw [hn] at g1'
  exact ⟨g0', g1'⟩

end Cert.SrcRange

end
-- ==== Proof.TakeMask.lean ====
/-
  Reading a row table at integer indices with an out-of-range guard.
  The program first wraps an index that is negative (it counts from the end: 10000 is added), then tests
  `0 ≤ idx ≤ 9999` per row, and where the test fails it replaces the gathered row by a fill value.
  For indices that already lie in `[0, 10000)` nothing of this changes anything: the wrapped index is the
  index, the test holds on every row, and the guarded gather is the gather.
-/
import Idealize.ShloMosaic.PureOps
import Idealize.ShloMosaic.PureOps.Reduce
import Idealize.ShloMosaic.Lib.Affine
import Idealize.ShloMosaic.Lib.ReduceAll
import Idealize.ShloMosaic.Lib.Pipeline.Value

noncomputable section

namespace Cert.TakeMask

open Idealize.ShloMosaic

/-- the index vector, one entry per edge -/
abbrev E : Shape := ⟨1, ![640000]⟩
/-- the same as a column -/
abbrev E1 : Shape := ⟨2, ![640000, 1]⟩
/-- one gathered row per edge -/
abbrev EH : Shape := ⟨2, ![640000, 128]⟩
abbrev Sc : Shape := ⟨0, ![]⟩
abbrev U1 : Shape := ⟨1, ![1]⟩
abbrev U11 : Shape := ⟨2, ![1, 1]⟩

/-- A word that is not negative is not below zero, so the branch that would add the table's length is not taken. -/
theorem wrap_eq (w : BitVec 32) (h0 : 0 ≤ w.toInt) :
    Scalar.select (IntOp.cmpi .slt w 0#32) (IntOp.addi w 10000#32) w = w := by
  have hz : (0#32 : BitVec 32).toInt = 0 := by decide
  have hn : ¬ IntOp.cmpi .slt w 0#32 = 1#1 := fun h => by
    have := IntOp.cmpi_slt.1 h
    rw [hz] at this
    omega
  unfold Scalar.select
  exact if_neg hn

/-- Folding `and` over bits that are all one gives back the bit the fold started from. -/
theorem foldl_andi_all_one {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, hf a, show IntOp.andi init 1#1 = init from by revert init; decide]
    exact foldl_andi_all_one f hf l init

/-- An `and`-reduction of an all-ones mask from an all-ones initial value is one everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, foldl_andi_all_one x hx]
  exact hinit _

/-- With every index in the table's range the wrapped index vector is the index vector. -/
theorem wrap_vec_eq (hb0 : Sc.BroadcastsInDim E ![]) (src : IVec E 32) (hsrc : ∀ e, 0 ≤ (src e).toInt) :
    select (cmpi .slt src (broadcastInDim E ![] hb0 (constantI Sc 32 0#32)))
        (addi src (broadcastInDim E ![] hb0 (constantI Sc 32 10000#32))) src = src :=
  funext fun e => wrap_eq (src e) (hsrc e)

private theorem le_of (w : BitVec 32) (h : 0 ≤ w.toInt ∧ w.toInt < 10000) : 0 ≤ w.toInt ∧ w.toInt ≤ 9999 :=
  ⟨h.1, by omega⟩

/-- … and, laid out as a column, every entry of it lies in `[0, 9999]`. -/
theorem wrapped_in_range (hb0 : Sc.BroadcastsInDim E ![]) (hbE1 : E.BroadcastsInDim E1 ![0]) (src : IVec E 32)
    (hsrc : ∀ e, 0 ≤ (src e).toInt ∧ (src e).toInt < 10000) (i : E1.Idx) :
    0 ≤ ((broadcastInDim E1 ![0] hbE1 (select (cmpi .slt src (broadcastInDim E ![] hb0 (constantI Sc 32 0#32)))
        (addi src (broadcastInDim E ![] hb0 (constantI Sc 32 10000#32))) src)) i).toInt
    ∧ ((broadcastInDim E1 ![0] hbE1 (select (cmpi .slt src (broadcastInDim E ![] hb0 (constantI Sc 32 0#32)))
        (addi src (broadcastInDim E ![] hb0 (constantI Sc 32 10000#32))) src)) i).toInt ≤ 9999 := by
  rw [wrap_vec_eq hb0 src fun e => (hsrc e).1]
  unfold broadcastInDim
  exact le_of _ (hsrc _)

/-- Selecting by a mask that is one on every row, spread along the rows, keeps the first operand. -/
theorem select_rows_ones {α : Type} (hbEH : E.BroadcastsInDim EH ![0]) (R : IVec E 1) (hR : ∀ j, R j = 1#1)
    (g fill : EH.Idx → α) : select (broadcastInDim EH ![0] hbEH R) g fill = g := by
  funext i
  unfold select broadcastInDim
  dsimp only
  rw [hR]
  rfl

/-- THE GUARD IS IDLE: for a column of indices in `[0, 9999]` the per-row test `0 ≤ idx ∧ idx ≤ 9999`, reduced by `and`
    over the column's unit axis and spread along the rows, is one everywhere, so selecting by it keeps the gathered rows. -/
theorem guard_idle {α : Type} (hb01 : Sc.BroadcastsInDim E1 ![]) (hbU : U1.BroadcastsInDim U11 ![1])
    (hbUE : U11.BroadcastsInDim E1 ![0, 1]) (hred : E1.ReducesTo [1] E) (h0 : 0 < Sc.numel)
    (hbEH : E.BroadcastsInDim EH ![0]) (idx : IVec E1 32)
    (hidx : ∀ i, 0 ≤ (idx i).toInt ∧ (idx i).toInt ≤ 9999) (g fill : EH.Idx → α) :
    select (broadcastInDim EH ![0] hbEH
        (Host.reduce IntOp.andi
          (andi (cmpi .sge idx (broadcastInDim E1 ![] hb01 (constantI Sc 32 0#32)))
            (cmpi .sle idx (broadcastInDim E1 ![0, 1] hbUE (broadcastInDim U11 ![1] hbU (constantI U1 32 9999#32)))))
          (constantI Sc 1 1#1) hred h0)) g fill = g := by
  have h0' : (0#32 : BitVec 32).toInt = 0 := by decide
  have h9' : (9999#32 : BitVec 32).toInt = 9999 := by decide
  have hm : ∀ j, Host.reduce IntOp.andi
      (andi (cmpi .sge idx (broadcastInDim E1 ![] hb01 (constantI Sc 32 0#32)))
        (cmpi .sle idx (broadcastInDim E1 ![0, 1] hbUE (broadcastInDim U11 ![1] hbU (constantI U1 32 9999#32)))))
      (constantI Sc 1 1#1) hred h0 j = 1#1 :=
    reduce_andi_of_all _ _ hred h0 (fun i' => by
      show IntOp.andi (IntOp.cmpi .sge (idx i') 0#32) (IntOp.cmpi .sle (idx i') 9999#32) = 1#1
      rw [IntOp.andi_eq_one, IntOp.cmpi_sge, IntOp.cmpi_sle, h0', h9']
      exact hidx i') (fun _ => rfl)
  exact select_rows_ones hbEH _ hm g fill

end Cert.TakeMask

end
-- ==== Proof.Bridge.lean ====
/-
  THE TWO PROGRAMS COMPUTE ONE EDGE ARRAY. Over the exact values, and for source indices in the node table's range:
  • the kernel's node projection `∑ₖ x[n, k] · (W_left)ᵀ[k, h]` is the reference's contraction
    `∑ₖ x[n, k] · W_left[h, k]` — a transposed matrix read at `(k, h)` is the matrix at `(h, k)`;
  • the kernel's guarded gather is the plain gather the reference applies, at the same wrapped indices (the guard is idle);
  • the kernel's edge sum `∑ₖ e[r, k] · (W_right)ᵀ[k, h]` is the reference's `∑ₖ e[r, k] · W_right[h, k]`;
  so `(gathered + edge sum) · norm` is the same array on both sides, entry by entry; the rounding of the kernel's
  stored messages to a narrower float format and back is the identity over the exact values.
-/
import proofs.«406630_j26628797235284_3_alg».proof.Proof.HostRead
import proofs.«406630_j26628797235284_3_alg».proof.Proof.NodeRegion
import proofs.«406630_j26628797235284_3_alg».proof.Proof.EdgeRegion
import proofs.«406630_j26628797235284_3_alg».proof.Proof.TakeMask
import proofs.«406630_j26628797235284_3_alg».proof.Proof.Gen.ReferenceIdeal.Read
import Idealize.ShloMosaic.Lib.Pipeline.Value

noncomputable section

namespace Cert.Bridge

open Idealize.ShloMosaic Cert.KernelIdeal Cert.KernelIdeal.Gen Cert.ReferenceIdeal.Read

variable (x0 : Vec Ideal S10000x128 .f32) (x1 : Vec Ideal S640000x128 .f32) (x2 : Vec Ideal S640000x1 .f32)
  (x3 : Vec Ideal S128x256 .f32) (x4 : IVec S640000 32)

/-! ## The node projection -/

theorem xrow_eq (i : S10000x128.Idx) (k : Fin 128) : NodeRegion.xrow i k = lidx_main_v2 i k :=
  funext fun a => by match a with | ⟨0, _⟩ => rfl | ⟨1, _⟩ => rfl

/-- The transposed left half of the weight at `(k, h)` is that half at `(h, k)`. -/
theorem wSrcT_apply (i : S10000x128.Idx) (k : Fin 128) :
    HostRead.wSrcT x3 (NodeRegion.wcol i k) = val_main_v0 (F := Ideal) x3 (ridx_main_v2 i k) := by
  unfold HostRead.wSrcT
  exact transpose_apply [1, 0] _ _ (NodeRegion.wcol i k) (ridx_main_v2 i k) (fun b => match b with
    | ⟨0, _⟩ => rfl
    | ⟨1, _⟩ => rfl)

/-- The node region's array is the reference's projection of the node table. -/
theorem proj_eq : NodeRegion.proj x0 (HostRead.wSrcT x3) = val_main_v2 (F := Ideal) x0 x3 := by
  funext i
  rw [val_main_v2_apply]
  unfold NodeRegion.proj
  exact Finset.sum_congr rfl fun k _ => by rw [wSrcT_apply, xrow_eq]

/-! ## The gather -/

/-- For source indices in the table's range the guarded gather is the plain gather at the wrapped indices. -/
theorem take_eq (x : Vec Ideal S10000x128 .f32) (hsrc : ∀ e, 0 ≤ (x4 e).toInt ∧ (x4 e).toInt < 10000) :
    HostRead.takeRows x x4
      = Host.gather gather_S10000x128_S640000x1_S640000x128_1_0_n_n_0_1_1128 x (HostRead.srcCol x4) := by
  unfold HostRead.takeRows
  exact TakeMask.guard_idle bcast_S_S640000x1 bcast_S1_S1x1_1 bcast_S1x1_S640000x1_0_1 reducesTo_S640000x1_S640000_d1
    h_S_ bcast_S640000_S640000x128_0 (HostRead.srcCol x4)
    (fun i => TakeMask.wrapped_in_range bcast_S_S640000 bcast_S640000_S640000x1_0 x4 hsrc i) _ _

/-- … which is the reference's gathered projection. -/
theorem gathered_eq (hsrc : ∀ e, 0 ≤ (x4 e).toInt ∧ (x4 e).toInt < 10000) :
    HostRead.takeRows (NodeRegion.proj x0 (HostRead.wSrcT x3)) x4 = val_main_v9 (F := Ideal) x0 x3 x4 := by
  rw [take_eq x4 _ hsrc, proj_eq]
  rfl

/-! ## The edge projection -/

theorem erow_eq (i : S640000x128.Idx) (k : Fin 128) : EdgeRegion.erow i k = lidx_main_v10 i k :=
  funext fun a => by match a with | ⟨0, _⟩ => rfl | ⟨1, _⟩ => rfl

theorem ncol_eq (i : S640000x128.Idx) : EdgeRegion.ncol i = idx_main_v12 i :=
  funext fun a => by match a with | ⟨0, _⟩ => rfl | ⟨1, _⟩ => rfl

/-- The transposed right half of the weight at `(k, h)` is that half at `(h, k)`. -/
theorem wEdgeT_apply (i : S640000x128.Idx) (k : Fin 128) :
    HostRead.wEdgeT x3 (EdgeRegion.wcol i k) = val_main_v1 (F := Ideal) x3 (ridx_main_v10 i k) := by
  unfold HostRead.wEdgeT
  exact transpose_apply [1, 0] _ _ (EdgeRegion.wcol i k) (ridx_main_v10 i k) (fun b => match b with
    | ⟨0, _⟩ => rfl
    | ⟨1, _⟩ => rfl)

theorem edge_sum_eq (i : S640000x128.Idx) :
    ∑ k : Fin 128, x1 (EdgeRegion.erow i k) * HostRead.wEdgeT x3 (EdgeRegion.wcol i k)
      = val_main_v10 (F := Ideal) x1 x3 i := by
  rw [val_main_v10_apply]
  exact Finset.sum_congr rfl fun k _ => by rw [wEdgeT_apply, erow_eq]

/-! ## The messages -/

/-- THE EDGE ARRAY: what the kernel's second region leaves, widened back, is the reference's message array. -/
theorem msg_eq (hsrc : ∀ e, 0 ≤ (x4 e).toInt ∧ (x4 e).toInt < 10000) :
    (extf (F := Ideal) (s := S640000x128) (φ := .bf16) .f32
        (EdgeRegion.msg x1 (HostRead.takeRows (NodeRegion.proj x0 (HostRead.wSrcT x3)) x4) x2 (HostRead.wEdgeT x3))
        bitsLt_bf16_f32 : Vec Ideal S640000x128 .f32)
      = val_main_v13 (F := Ideal) x0 x1 x2 x3 x4 := by
  funext i
  rw [val_main_v13_apply, val_main_v11_apply, val_main_v12_apply, ← edge_sum_eq, ← gathered_eq x0 x3 x4 hsrc, ← ncol_eq]
  rfl

/-! ## The tail -/

/-- The reference's last stage is the same tail — node sums, then the activation — of its message array. -/
theorem ref_tail (x5 : IVec S640000 32) :
    val_main_v21 (F := Ideal) x0 x1 x2 x3 x4 x5 = HostRead.tail (val_main_v13 (F := Ideal) x0 x1 x2 x3 x4) x5 := rfl

end Cert.Bridge

end
-- ==== Proof.lean ====
/-
  The kernel and its reference compute one function of their arguments.

  Both are a message-passing layer over a graph of 10000 nodes and 640000 edges: every edge carries the message
  `(P[src e] + edge_h[e] · W_rightᵀ) · norm[e]`, where `P = node_h · W_leftᵀ` is the node table projected once, every node
  sums the messages of the edges that end in it, and the sums pass through `where(h ≥ 0, h, (11/48) · h)`.
  The kernel computes `P` in a first pallas_call, gathers its rows on the host, forms the messages in a second
  pallas_call over the transposed halves of the weight, and shares the rest with the reference operation by operation.
  Over the exact values the two matrix products are the reference's contractions with the summation index
  renamed, and the kernel's narrower storage format for the messages changes nothing.
  The one place where the programs differ is an index outside the node table: there the kernel's gather returns a
  fill row and the reference's a clamped one, so the precondition asks for source indices in `[0, 10000)`,
  under which the kernel's range test holds on every row (Proof/TakeMask.lean, Proof/SrcRange.lean).

  The frames of the two kernel programs are the generated ones; the reference's frame and value are its generated
  run; the kernel's value is its run with the result buffer read at the last segment boundary (Proof/KernelRun.lean),
  then each region's output array as one function of the arrays it found (Proof/NodeRegion.lean,
  Proof/EdgeRegion.lean over Proof/Payload.lean), the host stretches between them (Proof/HostRead.lean), and
  the entry-by-entry equality of the two message arrays (Proof/Bridge.lean).
-/
import proofs.«406630_j26628797235284_3_alg».proof.Defs
import proofs.«406630_j26628797235284_3_alg».proof.Proof.Gen.Kernel
import proofs.«406630_j26628797235284_3_alg».proof.Proof.Gen.Kernel.Skeleton
import proofs.«406630_j26628797235284_3_alg».proof.Proof.Gen.Kernel.Launch
import proofs.«406630_j26628797235284_3_alg».proof.Proof.Gen.Kernel.Points
import proofs.«406630_j26628797235284_3_alg».proof.Proof.Gen.Kernel.Frame
import proofs.«406630_j26628797235284_3_alg».proof.Proof.Gen.KernelIdeal
import proofs.«406630_j26628797235284_3_alg».proof.Proof.Gen.KernelIdeal.Skeleton
import proofs.«406630_j26628797235284_3_alg».proof.Proof.Gen.KernelIdeal.Launch
import proofs.«406630_j26628797235284_3_alg».proof.Proof.Gen.KernelIdeal.Points
import proofs.«406630_j26628797235284_3_alg».proof.Proof.Gen.KernelIdeal.Frame
import proofs.«406630_j26628797235284_3_alg».proof.Proof.Gen.ReferenceIdeal
import proofs.«406630_j26628797235284_3_alg».proof.Proof.Gen.ReferenceIdeal.Run
import proofs.«406630_j26628797235284_3_alg».proof.Proof.Gen.ReferenceIdeal.Read
import proofs.«406630_j26628797235284_3_alg».proof.Proof.Gen.Pre_finite_inputs
import proofs.«406630_j26628797235284_3_alg».proof.Proof.KernelRun
import proofs.«406630_j26628797235284_3_alg».proof.Proof.HostRead
import proofs.«406630_j26628797235284_3_alg».proof.Proof.NodeRegion
import proofs.«406630_j26628797235284_3_alg».proof.Proof.EdgeRegion
import proofs.«406630_j26628797235284_3_alg».proof.Proof.SrcRange
import proofs.«406630_j26628797235284_3_alg».proof.Proof.Bridge
import Idealize.ShloMosaic.Adequacy
import Idealize.ShloMosaic.Init

noncomputable section

namespace Cert.Proof

open Idealize.ShloMosaic Idealize.ShloMosaic.TcCoe Idealize.SL.Sem

/-! ## The kernel's result array -/

section KernelValue

open Cert.KernelIdeal Cert.KernelIdeal.Gen Cert.ReferenceIdeal.Read

/-- On each core the kernel's result buffer ends holding the tail — node sums, then the activation — of the
    reference's message array of the launch memory's arguments, provided the source indices are rows of the node table. -/
theorem kernel_result (m : (ℓ : Loc nD τ sig) → Buf (Elt Ideal) ℓ) (ρ : Dev nD → PrngReg) (c : Dev nD)
    (hsrc : ∀ e, 0 ≤ ((m ((c : Thread nD τ).loc main_arg4)) e).toInt ∧ ((m ((c : Thread nD τ).loc main_arg4)) e).toInt < 10000) :
    W6 m ρ c (Proc.devRef .tc main_v15)
      = HostRead.tail (val_main_v13 (F := Ideal) (m ((c : Thread nD τ).loc main_arg0)) (m ((c : Thread nD τ).loc main_arg1))
          (m ((c : Thread nD τ).loc main_arg2)) (m ((c : Thread nD τ).loc main_arg3)) (m ((c : Thread nD τ).loc main_arg4)))
          (m ((c : Thread nD τ).loc main_arg5)) := by
  rw [HostRead.W6_v15, EdgeRegion.final, HostRead.V3_arg1, HostRead.V3_v5, NodeRegion.final, HostRead.V1_arg0,
    HostRead.V1_v1, HostRead.V3_arg2, HostRead.V3_v3, Cert.Bridge.msg_eq _ _ _ _ _ hsrc]

end KernelValue

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the tail of one and the same message array of their (agreeing) arguments. -/
theorem algebraic : Cert.algebraic_KernelIdeal_ReferenceIdeal := by
  intro m ρ m' ρ' hpre hagree
  have hsrc := fun c => Cert.SrcRange.of_pre _ _ _ _ _ _ (hpre c)
  refine ⟨_, (θ_run Cert.KernelIdeal.defs _ _).mono
      (fun r h c => ⟨(h c).1.trans (kernel_result m ρ c (hsrc c)), (h c).2⟩)
      (Cert.KernelIdeal.RunValue.run_result m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v21_eq _ _ _ _ _ _).trans (Cert.Bridge.ref_tail _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
